-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S14336x4096 : Shape := ⟨2, ![14336, 4096]⟩
abbrev S14336x1 : Shape := ⟨2, ![14336, 1]⟩
abbrev S14336 : Shape := ⟨1, ![14336]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S14336x1 : S_.BroadcastsInDim S14336x1 (![] : Fin 0 → Fin S14336x1.rank)
  reducesTo_S14336x1_S_d0_1 : S14336x1.ReducesTo [0, 1] S_
  bcast_S_S14336 : S_.BroadcastsInDim S14336 (![] : Fin 0 → Fin S14336.rank)
  reducesTo_S14336_S_d0 : S14336.ReducesTo [0] S_

variable [Facts]

def fn {F : FTy → Type} [FloatOps F] (main_arg0 : FVec F S2x2048x4096 .f32) (main_arg1 : IVec S14336x4096 32) (main_arg2 : FVec F S14336x1 .f32) (main_arg3 : FVec F S14336 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S14336x1 .f32 := Host.absf main_arg2
  let main_cst_0 : FVec F S_ .f32 := constant S_ .f32 0x7F800000#32
  let main_v5 : FVec F S14336x1 .f32 := broadcastInDim S14336x1 ![] bcast_S_S14336x1 main_cst_0
  let main_v6 : IVec S14336x1 1 := cmpf .olt main_v4 main_v5
  let main_c_1 : IVec S_ 1 := constantI S_ 1 1#1
  let main_v7 : IVec S_ 1 := (fun x v => Host.reduce IntOp.andi x v reducesTo_S14336x1_S_d0_1 h_S_) main_v6 main_c_1
  let main_v8 : IVec S_ 1 := andi main_v3 main_v7
  let main_v9 : FVec F S14336 .f32 := Host.absf main_arg3
  let main_cst_2 : FVec F S_ .f32 := constant S_ .f32 0x7F800000#32
  let main_v10 : FVec F S14336 .f32 := broadcastInDim S14336 ![] bcast_S_S14336 main_cst_2
  let main_v11 : IVec S14336 1 := cmpf .olt main_v9 main_v10
  let main_c_3 : IVec S_ 1 := constantI S_ 1 1#1
  let main_v12 : IVec S_ 1 := (fun x v => Host.reduce IntOp.andi x v reducesTo_S14336_S_d0 h_S_) main_v11 main_c_3
  let main_v13 : IVec S_ 1 := andi main_v8 main_v12
  main_v13
-- ==== Kernel.lean ====
abbrev S2x2048x4096 : Shape := ⟨3, ![2, 2048, 4096]⟩
abbrev S14336x4096 : Shape := ⟨2, ![14336, 4096]⟩
abbrev S14336x1 : Shape := ⟨2, ![14336, 1]⟩
abbrev S14336 : Shape := ⟨1, ![14336]⟩
abbrev S4096x4096 : Shape := ⟨2, ![4096, 4096]⟩
abbrev S1x14336 : Shape := ⟨2, ![1, 14336]⟩
abbrev S4096x14336 : Shape := ⟨2, ![4096, 14336]⟩
abbrev S1024x4096 : Shape := ⟨2, ![1024, 4096]⟩
abbrev S256x4096 : Shape := ⟨2, ![256, 4096]⟩
abbrev S1x256 : Shape := ⟨2, ![1, 256]⟩
abbrev S1024x256 : Shape := ⟨2, ![1024, 256]⟩
abbrev S1024x1024 : Shape := ⟨2, ![1024, 1024]⟩
abbrev S256x1024 : Shape := ⟨2, ![256, 1024]⟩
abbrev S2x2048x14336 : Shape := ⟨3, ![2, 2048, 14336]⟩

abbrev nBuf : Space → Nat
  | .hbm => 10
  | .vmem => 11
  | .smem => 0
  | _ => 0

abbrev bufTy : (tb : Table) → Fin (tcTables nBuf tb) → BufTy
  | .hbm, ⟨0, _⟩ => ⟨S2x2048x4096, .f32⟩
  | .hbm, ⟨1, _⟩ => ⟨S14336x4096, .i32⟩
  | .hbm, ⟨2, _⟩ => ⟨S14336x1, .f32⟩
  | .hbm, ⟨3, _⟩ => ⟨S14336, .f32⟩
  | .hbm, ⟨4, _⟩ => ⟨S4096x4096, .f32⟩
  | .hbm, ⟨5, _⟩ => ⟨S4096x4096, .bf16⟩
  | .hbm, ⟨6, _⟩ => ⟨S1x14336, .f32⟩
  | .hbm, ⟨7, _⟩ => ⟨S1x14336, .f32⟩
  | .hbm, ⟨8, _⟩ => ⟨S4096x14336, .f32⟩
  | .hbm, ⟨9, _⟩ => ⟨S2x2048x14336, .f32⟩
  | .local _ .vmem, ⟨0, _⟩ => ⟨S1024x4096, .bf16⟩
  | .local _ .vmem, ⟨1, _⟩ => ⟨S1024x4096, .bf16⟩
  | .local _ .vmem, ⟨2, _⟩ => ⟨S256x4096, .i32⟩
  | .local _ .vmem, ⟨3, _⟩ => ⟨S256x4096, .i32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 56], ![false, false]⟩

@[reducible] def k0_t1_loop : Scf.Loop 32 :=
  let c0_i32 : BitVec 32 := 0#32
  let c4_i32 : BitVec 32 := 4#32
  let v4 : BitVec 32 := Scalar.addi c0_i32 c4_i32
  let c1_i32 : BitVec 32 := 1#32
  ⟨c0_i32, v4, c1_i32⟩
def k0_mult1 (k0_t1 : Fin k0_t1_loop.trips) : BitVec 32 :=
  let c0_i32_11 : BitVec 32 := 0#32
  let c0_i32 : BitVec 32 := 0#32
  let c1_i32 : BitVec 32 := 1#32
  let arg8 : BitVec 32 := Scf.iv c0_i32 c1_i32 k0_t1
  let c1_i32_10 : BitVec 32 := 1#32
  let v15 : BitVec 32 := Scalar.muli arg8 c1_i32_10
  let v16 : BitVec 32 := Scalar.addi c0_i32_11 v15
  let c1024_i32 : BitVec 32 := 1024#32
  let v17 : BitVec 32 := Scalar.muli v16 c1024_i32
  v17
def k0_off1 (k0_t1 : Fin k0_t1_loop.trips) : Fin 2 → Nat :=
  let c0_12 : Index := 0#32
  let c0_i32_11 : BitVec 32 := 0#32
  let c0_i32 : BitVec 32 := 0#32
  let c1_i32 : BitVec 32 := 1#32
  let arg8 : BitVec 32 := Scf.iv c0_i32 c1_i32 k0_t1
  let c1_i32_10 : BitVec 32 := 1#32
  let v15 : BitVec 32 := Scalar.muli arg8 c1_i32_10
  let v16 : BitVec 32 := Scalar.addi c0_i32_11 v15
  let c1024_i32 : BitVec 32 := 1024#32
  let v17 : BitVec 32 := Scalar.muli v16 c1024_i32
  let v18 : BitVec 32 := v17
  let v19 : Index := Scalar.indexCast v18
  ![0, v19.toNat]
def k0_off2 (k0_t1 : Fin k0_t1_loop.trips) : Fin 2 → Nat :=
  let c0_13 : Index := 0#32
  let c0_i32_11 : BitVec 32 := 0#32
  let c0_i32 : BitVec 32 := 0#32
  let c1_i32 : BitVec 32 := 1#32
  let arg8 : BitVec 32 := Scf.iv c0_i32 c1_i32 k0_t1
  let c1_i32_10 : BitVec 32 := 1#32
  let v15 : BitVec 32 := Scalar.muli arg8 c1_i32_10
  let v16 : BitVec 32 := Scalar.addi c0_i32_11 v15
  let c1024_i32 : BitVec 32 := 1024#32
  let v17 : BitVec 32 := Scalar.muli v16 c1024_i32
  let v18 : BitVec 32 := v17
  let v22 : Index := Scalar.indexCast v18
  ![0, v22.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S2x2048x4096_S4096x4096 : S2x2048x4096.ShapeCasts S4096x4096
  bitsLt_bf16_f32 : FTy.bits .bf16 < FTy.bits .f32
  shapeCasts_S14336_S1x14336 : S14336.ShapeCasts S1x14336
  shapeCasts_S14336x1_S1x14336 : S14336x1.ShapeCasts S1x14336
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  h_S1024x1024 : 0 < S1024x1024.numel
  shapeCasts_S1024x1024_S1024x1024 : S1024x1024.ShapeCasts S1024x1024
  h_S256x1024 : 0 < S256x1024.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  shapeCasts_S4096x14336_S2x2048x14336 : S4096x14336.ShapeCasts S2x2048x14336
  dot_S1024x1024_S256x1024_S1024x256_1_1_0_0_n_n_wf : DotDims.WF S1024x1024 S256x1024 S1024x256 [1] [1] [0] [0] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1024x1024.size a ≤ S1024x4096.size a
  k0_off2_inb : ∀ k0_t1 : Fin k0_t1_loop.trips, ∀ a, (k0_off2 k0_t1) a + S256x1024.size a ≤ S256x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S4096x4096.size a
  hwx0_0 : ∀ i : grid0.Coords, EltTy.bits .bf16 = 32 ∨ (Rect.block (s := S4096x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S14336x4096.size a
  hwx0_1 : ∀ i : grid0.Coords, EltTy.bits .i32 = 32 ∨ (Rect.block (s := S14336x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x14336.size a
  hwx0_2 : ∀ i : grid0.Coords, EltTy.bits .f32 = 32 ∨ (Rect.block (s := S1x14336) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x14336.size a
  hwx0_3 : ∀ i : grid0.Coords, EltTy.bits .f32 = 32 ∨ (Rect.block (s := S1x14336) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S4096x14336.size a
  hwx0_4 : ∀ i : grid0.Coords, EltTy.bits .f32 = 32 ∨ (Rect.block (s := S4096x14336) S1024x256.size (cc0_transform_4 i) (hinb0_4 i)).WholeWords (EltTy.packing .f32)

variable [Facts₀]

def dot_S1024x1024_S256x1024_S1024x256_1_1_0_0_n_n : DotDims S1024x1024 S256x1024 S1024x256 where
  lhsContracting := [1]
  rhsContracting := [1]
  lhsNonContracting := [0]
  rhsNonContracting := [0]
  lhsBatch := []
  rhsBatch := []
  wf := dot_S1024x1024_S256x1024_S1024x256_1_1_0_0_n_n_wf

abbrev win0_0 : Pipeline.Window sig grid0 :=
  Pipeline.Window.ofSpec (Memref.whole main_v1) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x2048x4096 : Shape := ⟨3, ![2, 2048, 4096]⟩
abbrev S14336x4096 : Shape := ⟨2, ![14336, 4096]⟩
abbrev S14336x1 : Shape := ⟨2, ![14336, 1]⟩
abbrev S14336 : Shape := ⟨1, ![14336]⟩
abbrev S4096x4096 : Shape := ⟨2, ![4096, 4096]⟩
abbrev S_ : Shape := ⟨0, ![]⟩
abbrev S4096x14336 : Shape := ⟨2, ![4096, 14336]⟩
abbrev S1x14336 : Shape := ⟨2, ![1, 14336]⟩
abbrev S2x2048x14336 : Shape := ⟨3, ![2, 2048, 14336]⟩

abbrev nBuf : Space → Nat
  | .hbm => 16
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S14336x4096, .i32⟩
  | .hbm, ⟨2, _⟩ => ⟨S14336x1, .f32⟩
  | .hbm, ⟨3, _⟩ => ⟨S14336, .f32⟩
  | .hbm, ⟨4, _⟩ => ⟨S4096x4096, .f32⟩
  | .hbm, ⟨5, _⟩ => ⟨S14336x4096, .f32⟩
  | .hbm, ⟨6, _⟩ => ⟨S_, .f32⟩
  | .hbm, ⟨7, _⟩ => ⟨S14336x4096, .f32⟩
  | .hbm, ⟨8, _⟩ => ⟨S14336x4096, .f32⟩
  | .hbm, ⟨9, _⟩ => ⟨S14336x4096, .f32⟩
  | .hbm, ⟨10, _⟩ => ⟨S14336x4096, .f32⟩
  | .hbm, ⟨11, _⟩ => ⟨S4096x14336, .f32⟩
  | .hbm, ⟨12, _⟩ => ⟨S1x14336, .f32⟩
  | .hbm, ⟨13, _⟩ => ⟨S4096x14336, .f32⟩
  | .hbm, ⟨14, _⟩ => ⟨S4096x14336, .f32⟩
  | .hbm, ⟨15, _⟩ => ⟨S2x2048x14336, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  shapeCasts_S2x2048x4096_S4096x4096 : S2x2048x4096.ShapeCasts S4096x4096
  bcast_S_S14336x4096 : S_.BroadcastsInDim S14336x4096 (![] : Fin 0 → Fin S14336x4096.rank)
  bcast_S14336x1_S14336x4096_0_1 : S14336x1.BroadcastsInDim S14336x4096 (![0, 1] : Fin 2 → Fin S14336x4096.rank)
  bcast_S14336_S1x14336_1 : S14336.BroadcastsInDim S1x14336 (![1] : Fin 1 → Fin S1x14336.rank)
  bcast_S1x14336_S4096x14336_0_1 : S1x14336.BroadcastsInDim S4096x14336 (![0, 1] : Fin 2 → Fin S4096x14336.rank)
  shapeCasts_S4096x14336_S2x2048x14336 : S4096x14336.ShapeCasts S2x2048x14336
  dot_S4096x4096_S14336x4096_S4096x14336_1_1_0_0_n_n_wf : DotDims.WF S4096x4096 S14336x4096 S4096x14336 [1] [1] [0] [0] [] []

variable [Facts₀]

def dot_S4096x4096_S14336x4096_S4096x14336_1_1_0_0_n_n : DotDims S4096x4096 S14336x4096 S4096x14336 where
  lhsContracting := [1]
  rhsContracting := [1]
  lhsNonContracting := [0]
  rhsNonContracting := [0]
  lhsBatch := []
  rhsBatch := []
  wf := dot_S4096x4096_S14336x4096_S4096x14336_1_1_0_0_n_n_wf

class Facts : Prop extends Facts₀ where

variable [Facts]
-- ==== Proof.BodyRun.lean ====
/-
  What one grid point's body leaves in its output block, for any float instance.

  The body zeroes its accumulator, then walks the contraction axis in four chunks of 1024 columns: each trip reads
  the accumulator back, adds the product of the row block's chunk with the dequantized weight block's chunk, and
  stores the sum over the whole accumulator. Afterwards it reads the accumulator once more, scales it by the scale
  row, adds the bias row, and stores that over the whole output block.

  So the accumulator after `k` trips is the `k`-fold update of the zero block (`acc`), and the output block is the
  affine map of the accumulator after the last trip (`out_eq`). Each trip writes ONE piece covering the whole
  accumulator, so what is read back after a trip is that piece's payload, whatever was there before.
-/
import proofs.«421323_j15616501088306_3_alg».proof.Proof.Gen.KernelIdeal.Frame
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- The chunk of the row block's columns that trip `k` multiplies. -/
abbrev xchunk (x0 : Vec F S1024x4096 .bf16) (k : Fin k0_t1_loop.trips) : Vec F S1024x1024 .bf16 :=
  View.ld x0 (Rect.unit (s := S1024x4096) (k0_off1 k) S1024x1024.size (k0_off1_inb k))

/-- The chunk of the weight block's columns that trip `k` multiplies. -/
abbrev qchunk (x1 : Vec F S256x4096 .i32) (k : Fin k0_t1_loop.trips) : Vec F S256x1024 .i32 :=
  View.ld x1 (Rect.unit (s := S256x4096) (k0_off2 k) S256x1024.size (k0_off2_inb k))

/-- The accumulator after `k` trips: the zero block, updated once per chunk. -/
def acc (x0 : Vec F S1024x4096 .bf16) (x1 : Vec F S256x4096 .i32) : ℕ → Vec F S1024x256 .f32
  | 0 => k0_pay1 (F := F)
  | k + 1 => if h : k < k0_t1_loop.trips then k0_pay2 (xchunk x0 ⟨k, h⟩) (qchunk x1 ⟨k, h⟩) (acc x0 x1 k) else acc x0 x1 k

theorem acc_zero (x0 : Vec F S1024x4096 .bf16) (x1 : Vec F S256x4096 .i32) : acc x0 x1 0 = k0_pay1 (F := F) := rfl

theorem acc_succ (x0 : Vec F S1024x4096 .bf16) (x1 : Vec F S256x4096 .i32) (k : Fin k0_t1_loop.trips) :
    acc x0 x1 (k.val + 1) = k0_pay2 (xchunk x0 k) (qchunk x1 k) (acc x0 x1 k.val) := by
  rw [acc]; exact dif_pos k.isLt

/-- One trip writes one piece: over the whole accumulator, the update of what it found there. -/
theorem trip_piece (𝒱 : Variants) (c : Dev nD) (bd : Option 𝒱.V) (i : grid0.Coords) (arg2 : Memref sig .tc .vmem S1024x4096 .bf16) (harg2 : arg2.IsWhole) (arg3 : Memref sig .tc .vmem S256x4096 .i32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole)
    (X2 : BufTy.Contents (Elt F) arg2.view.ty) (X3 : BufTy.Contents (Elt F) arg3.view.ty) (k : Fin k0_t1_loop.trips)
    (f : BufTy.Contents (Elt F) arg7.view.ty) :
    tripL_k0_t1 (F := F) 𝒱 c bd i arg2 harg2 arg3 harg3 arg4 harg4 arg5 harg5 arg6 harg6 arg7 harg7 X2 X3 k f
      = [⟨Rect.unit (s := S1024x256) ![0, 0] S1024x256.size inb_S1024x256_S1024x256_0_0,
          k0_pay2 (xchunk (arg2.view.read (Elt F) X2) k) (qchunk (arg3.view.read (Elt F) X3) k) (arg7.view.read (Elt F) f)⟩] := by
  unfold tripL_k0_t1 trip_k0_t1
  dsimp only
  simp only [View.readAt_eq_ld, View.ld_unit_zero (S := S1024x256) hz]

/-- The zeroing store's piece. -/
abbrev zeroPiece : View.Piece (Elt F) S1024x256 .f32 :=
  ⟨Rect.unit (s := S1024x256) ![0, 0] S1024x256.size inb_S1024x256_S1024x256_0_0, k0_pay1 (F := F)⟩

/-- Before the first trip the accumulator reads the zero block, whatever it held at entry: the zeroing store covers it. -/
theorem read_trips_zero (𝒱 : Variants) (c : Dev nD) (bd : Option 𝒱.V) (i : grid0.Coords) (arg2 : Memref sig .tc .vmem S1024x4096 .bf16) (harg2 : arg2.IsWhole) (arg3 : Memref sig .tc .vmem S256x4096 .i32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole)
    (x0 : Vec F S1024x4096 .bf16) (x1 : Vec F S256x4096 .i32) (d : BufTy.Contents (Elt F) arg7.view.ty) :
    arg7.view.read (Elt F) (arg7.view.writes (Elt F) (arg7.view.writes (Elt F) d [zeroPiece])
        (pb_k0_t1 (F := F) 𝒱 c bd i arg2 harg2 arg3 harg3 arg4 harg4 arg5 harg5 arg6 harg6 arg7 harg7 (harg2.unread x0) (harg3.unread x1) (arg7.view.writes (Elt F) d [zeroPiece]) 0)) = acc x0 x1 0 := by
  rw [pb_k0_t1.eq_1, View.writes_nil]
  rw [View.read_writes_eq_canon _ _ _ (fun y => ⟨_, List.mem_singleton_self _, View.mem_set_unit_zero hz inb_S1024x256_S1024x256_0_0 y⟩)]
  rw [View.canon_unit_zero hz]
  rfl

/-- One more trip: its one piece covers the accumulator, so what is read back is the update of what the trips
    before it left. -/
theorem read_trips_succ (𝒱 : Variants) (c : Dev nD) (bd : Option 𝒱.V) (i : grid0.Coords) (arg2 : Memref sig .tc .vmem S1024x4096 .bf16) (harg2 : arg2.IsWhole) (arg3 : Memref sig .tc .vmem S256x4096 .i32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole)
    (x0 : Vec F S1024x4096 .bf16) (x1 : Vec F S256x4096 .i32) (d : BufTy.Contents (Elt F) arg7.view.ty) (k : Fin k0_t1_loop.trips)
    (ih : arg7.view.read (Elt F) (arg7.view.writes (Elt F) (arg7.view.writes (Elt F) d [zeroPiece])
        (pb_k0_t1 (F := F) 𝒱 c bd i arg2 harg2 arg3 harg3 arg4 harg4 arg5 harg5 arg6 harg6 arg7 harg7 (harg2.unread x0) (harg3.unread x1) (arg7.view.writes (Elt F) d [zeroPiece]) k.val)) = acc x0 x1 k.val) :
    arg7.view.read (Elt F) (arg7.view.writes (Elt F) (arg7.view.writes (Elt F) d [zeroPiece])
        (pb_k0_t1 (F := F) 𝒱 c bd i arg2 harg2 arg3 harg3 arg4 harg4 arg5 harg5 arg6 harg6 arg7 harg7 (harg2.unread x0) (harg3.unread x1) (arg7.view.writes (Elt F) d [zeroPiece]) (k.val + 1))) = acc x0 x1 (k.val + 1) := by
  rw [pb_k0_t1_succ (F := F) 𝒱 c bd i arg2 harg2 arg3 harg3 arg4 harg4 arg5 harg5 arg6 harg6 arg7 harg7 (harg2.unread x0) (harg3.unread x1) (arg7.view.writes (Elt F) d [zeroPiece]) k]
  rw [trip_piece, List.singleton_append]
  rw [View.read_writes_eq_canon _ _ _ (fun y => ⟨_, List.mem_cons_self, View.mem_set_unit_zero hz inb_S1024x256_S1024x256_0_0 y⟩)]
  rw [View.canon_cons_unit_zero hz, harg2.read_unread, harg3.read_unread]
  rw [ih]
  exact (acc_succ x0 x1 k).symm

/-- After the zeroing store and `k` trips the accumulator reads `acc k`, whatever it held at entry. -/
theorem read_trips (𝒱 : Variants) (c : Dev nD) (bd : Option 𝒱.V) (i : grid0.Coords) (arg2 : Memref sig .tc .vmem S1024x4096 .bf16) (harg2 : arg2.IsWhole) (arg3 : Memref sig .tc .vmem S256x4096 .i32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole)
    (x0 : Vec F S1024x4096 .bf16) (x1 : Vec F S256x4096 .i32) (d : BufTy.Contents (Elt F) arg7.view.ty) (k : ℕ) (hk : k ≤ k0_t1_loop.trips) :
    arg7.view.read (Elt F) (arg7.view.writes (Elt F) (arg7.view.writes (Elt F) d [zeroPiece])
        (pb_k0_t1 (F := F) 𝒱 c bd i arg2 harg2 arg3 harg3 arg4 harg4 arg5 harg5 arg6 harg6 arg7 harg7 (harg2.unread x0) (harg3.unread x1) (arg7.view.writes (Elt F) d [zeroPiece]) k)) = acc x0 x1 k := by
  induction k with
  | zero => exact read_trips_zero 𝒱 c bd i arg2 harg2 arg3 harg3 arg4 harg4 arg5 harg5 arg6 harg6 arg7 harg7 x0 x1 d
  | succ k ih =>
    exact read_trips_succ 𝒱 c bd i arg2 harg2 arg3 harg3 arg4 harg4 arg5 harg5 arg6 harg6 arg7 harg7 x0 x1 d ⟨k, Nat.lt_of_succ_le hk⟩ (ih (Nat.le_of_succ_le hk))

/-- THE OUTPUT BLOCK of one grid point: the accumulator after the last trip, times the scale row, plus the bias row. -/
theorem out_eq (c : Dev nD) (i : grid0.Coords) (arg2 : Memref sig .tc .vmem S1024x4096 .bf16) (harg2 : arg2.IsWhole) (arg3 : Memref sig .tc .vmem S256x4096 .i32) (harg3 : arg3.IsWhole) (arg4 : Memref sig .tc .vmem S1x256 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole)
    (x0 : Vec F S1024x4096 .bf16) (x1 : Vec F S256x4096 .i32) (x2 : Vec F S1x256 .f32) (x3 : Vec F S1x256 .f32) :
    out0_A_4 c i arg2 harg2 arg3 harg3 arg4 harg4 arg5 harg5 arg6 harg6 arg7 harg7 x0 x1 x2 x3 = k0_pay3 x2 x3 (acc x0 x1 k0_t1_loop.trips) := by
  unfold out0_A_4
  rw [View.read_writes_junk_eq_canon]
  unfold kernelRun0_A
  dsimp only
  sl_unfold_words
  rw [View.canon_unit_zero hz]
  simp only [View.readAt_eq_ld, harg4.read_unread, harg5.read_unread, View.ld_unit_zero (S := S1x256) hz,
    View.ld_unit_zero (S := S1024x256) hz]
  rw [View.writes_append]
  exact congrArg (k0_pay3 x2 x3) (read_trips Variants.none c none i arg2 harg2 arg3 harg3 arg4 harg4 arg5 harg5 arg6 harg6 arg7 harg7 x0 x1 arg7.view.junk _ (Nat.le_refl _))

end Cert.KernelIdeal.Body

end
-- ==== Proof.Law.lean ====
/-
  The algebra that joins the two programs, over the extended reals.

  The kernel contracts 4096 columns in four chunks of 1024, adds the chunk sums one after the other onto a zero, and
  scales the total once; the reference scales every weight first and contracts all 4096 columns at once. Adding in
  another grouping is free in any commutative monoid (`chain_eq_sum`). Moving the scale inside the sum is
  distributivity, which the extended reals have only away from the infinities: it is stated for factors that are
  real numbers (`sum_mul_scale`).
-/
import Mathlib.Data.EReal.Basic
import Mathlib.Data.Fintype.BigOperators
import Mathlib.Logic.Equiv.Fin.Basic
import Mathlib.Algebra.BigOperators.Fin

open scoped BigOperators

namespace QuantLinear.Law

/-- A finite sum of reals, read in the extended reals, is the sum of the readings. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- An extended real that is neither infinity is a real number. -/
theorem exists_real {x : EReal} (h₁ : x ≠ ⊤) (h₂ : x ≠ ⊥) : ∃ r : ℝ, x = r :=
  ⟨x.toReal, (EReal.coe_toReal h₁ h₂).symm⟩

/-- Scaling a sum of products afterwards, or scaling one factor of every product first: equal when every factor
    and the scale are real numbers. -/
theorem sum_mul_scale {ι : Type*} (s : Finset ι) (x w : ι → EReal) (c : EReal)
    (hx : ∀ k, ∃ r : ℝ, x k = r) (hw : ∀ k, ∃ r : ℝ, w k = r) (hc : ∃ r : ℝ, c = r) :
    (∑ k ∈ s, x k * w k) * c = ∑ k ∈ s, x k * (w k * c) := by
  choose xr hxr using hx
  choose wr hwr using hw
  obtain ⟨cr, rfl⟩ := hc
  have e1 : ∀ k, x k * w k = ((xr k * wr k : ℝ) : EReal) := fun k => by rw [hxr, hwr, EReal.coe_mul]
  have e2 : ∀ k, x k * (w k * (cr : EReal)) = ((xr k * wr k * cr : ℝ) : EReal) := fun k => by
    rw [hxr, hwr, mul_assoc, EReal.coe_mul, EReal.coe_mul]
  rw [Finset.sum_congr rfl fun k _ => e1 k, Finset.sum_congr rfl fun k _ => e2 k, ← coe_sum, ← coe_sum,
    ← EReal.coe_mul, Finset.sum_mul]

/-- Chunk `c` of a sum over 4096 columns: the 1024 columns from `1024 c` on. -/
def chunk {M : Type*} [AddCommMonoid M] (g : Fin 4096 → M) (c : Fin 4) : M :=
  ∑ j : Fin 1024, g ⟨1024 * c.val + j.val, by have := c.isLt; have := j.isLt; omega⟩

/-- The four chunk sums, added one after the other onto a zero, are the sum over all 4096 columns. -/
theorem chain_eq_sum {M : Type*} [AddCommMonoid M] (g : Fin 4096 → M) :
    0 + chunk g 0 + chunk g 1 + chunk g 2 + chunk g 3 = ∑ n : Fin 4096, g n := by
  rw [zero_add, ← Fin.sum_univ_four (chunk g),
    ← Equiv.sum_comp (finProdFinEquiv : Fin 4 × Fin 1024 ≃ Fin (4 * 1024)) g, Fintype.sum_prod_type]
  refine Finset.sum_congr rfl fun c _ => Finset.sum_congr rfl fun j _ => congrArg g (Fin.ext ?_)
  show 1024 * c.val + j.val = j.val + 1024 * c.val
  omega

end QuantLinear.Law
-- ==== Proof.Spec.lean ====
/-
  What both programs compute, as one function of the argument arrays over the extended reals.

  With `X` the activations as a 4096 × 4096 matrix (the input's two leading axes merged), `Q` the stored weight
  words, `s` the per-output-row scales and `b` the bias, entry (r, o) of the result is

      ( ∑ₙ X[r, n] · ((Q[o, n] − 8) · s[o]) ) + b[o] ,

  the stored word read as a signed integer and shifted by the zero point 8. Both programs spell the zero point as
  a float literal, one as bf16 and one as f32: both patterns denote the real number 8.
-/
import Idealize.ShloMosaic.PureOps.Ideal
import Idealize.ShloMosaic.Lib.ValueIdx

noncomputable section

open scoped BigOperators

namespace QuantLinear

open Idealize.ShloMosaic Idealize.ShloMosaic.ValueIdx

/-- The bf16 pattern of the zero point denotes 8. -/
theorem ofBits_eight_bf16 : Ideal.ofBits .bf16 0x4100#16 = ((8 : ℝ) : EReal) := by
  simp [Ideal.ofBits, Ideal.ieee, -EReal.coe_mul]; norm_num

/-- The f32 pattern of the zero point denotes 8. -/
theorem ofBits_eight_f32 : Ideal.ofBits .f32 0x41000000#32 = ((8 : ℝ) : EReal) := by
  simp [Ideal.ofBits, Ideal.ieee, -EReal.coe_mul]; norm_num

/-- A stored weight word, dequantized: the signed integer it holds, minus the zero point. -/
def wdeq (Q : (⟨2, ![14336, 4096]⟩ : Shape).Idx → BitVec 32) (o : Fin 14336) (n : Fin 4096) : EReal :=
  (((Q (ix2 o n)).toInt : ℝ) : EReal) - ((8 : ℝ) : EReal)

/-- A dequantized weight is a real number. -/
theorem wdeq_real (Q : (⟨2, ![14336, 4096]⟩ : Shape).Idx → BitVec 32) (o : Fin 14336) (n : Fin 4096) :
    ∃ r : ℝ, wdeq Q o n = r := ⟨((Q (ix2 o n)).toInt : ℝ) - 8, (EReal.coe_sub _ _).symm⟩

/-- The quantized linear layer's result, entry by entry. -/
def spec (X : (⟨2, ![4096, 4096]⟩ : Shape).Idx → EReal) (Q : (⟨2, ![14336, 4096]⟩ : Shape).Idx → BitVec 32)
    (s : (⟨2, ![14336, 1]⟩ : Shape).Idx → EReal) (b : (⟨1, ![14336]⟩ : Shape).Idx → EReal) :
    (⟨2, ![4096, 14336]⟩ : Shape).Idx → EReal :=
  fun i => (∑ n : Fin 4096, X (ix2 (i 0) n) * (wdeq Q (i 1) n * s (ix2 (i 1) (0 : Fin 1)))) + b (ix1 (i 1))

theorem spec_apply (X : (⟨2, ![4096, 4096]⟩ : Shape).Idx → EReal) (Q : (⟨2, ![14336, 4096]⟩ : Shape).Idx → BitVec 32)
    (s : (⟨2, ![14336, 1]⟩ : Shape).Idx → EReal) (b : (⟨1, ![14336]⟩ : Shape).Idx → EReal) (r : Fin 4096) (o : Fin 14336) :
    spec X Q s b (ix2 r o) = (∑ n : Fin 4096, X (ix2 r n) * (wdeq Q o n * s (ix2 o (0 : Fin 1)))) + b (ix1 o) := rfl

end QuantLinear

end
-- ==== Proof.LibDotNT.lean ====
/-
  A matrix product against a transposed right operand, read at one entry. For the dimension numbers "rows × contraction
  by columns × contraction" with no batch axis (both operands contracted on their last axis), the product into a zero
  accumulator, at row `r` and column `q`, is the sum over the contracted coordinate `j` of the left operand at (r, j)
  times the right operand at (q, j). The same holds for the host's `dot_general`. Both are stated over extended reals,
  where the product is the exact sum.
-/
import Idealize.ShloMosaic.PureOps.Ideal.Laws
import Idealize.ShloMosaic.Lib.ValueIdx

noncomputable section

open scoped BigOperators

namespace Cert.LibDotNT

open Idealize.ShloMosaic Idealize.ShloMosaic.ValueIdx

/-- The left operand's index at output entry (r, q) and contracted coordinate `j` is (r, j). -/
theorem nt_lhsIdx (M K N : Nat) (r : Fin M) (q : Fin N) (j : Fin K) :
    (DotDims.transposedRhs M K N).lhsIdx (ix2 r q) ((contrEquiv1 (DotDims.transposedRhs M K N) K rfl rfl).symm j) = ix2 r j := by
  have hj := contrEquiv1_symm_val (DotDims.transposedRhs M K N) K rfl rfl j
  funext a
  apply Fin.ext
  match a with
  | ⟨0, _⟩ => rfl
  | ⟨1, _⟩ => refine Eq.trans ?_ hj; rfl

/-- The right operand's index at output entry (r, q) and contracted coordinate `j` is (q, j): its row is the output's
    column, its column the contracted coordinate. -/
theorem nt_rhsIdx (M K N : Nat) (r : Fin M) (q : Fin N) (j : Fin K) :
    (DotDims.transposedRhs M K N).rhsIdx (ix2 r q) ((contrEquiv1 (DotDims.transposedRhs M K N) K rfl rfl).symm j) = ix2 q j := by
  have hj := contrEquiv1_symm_val (DotDims.transposedRhs M K N) K rfl rfl j
  funext a
  apply Fin.ext
  match a with
  | ⟨0, _⟩ => rfl
  | ⟨1, _⟩ => refine Eq.trans ?_ hj; rfl

/-- The matrix unit's product against a transposed right operand into a zero accumulator, at one entry. -/
theorem matmul_nt_apply {φ₁ φ₂ : FTy} (M K N : Nat) (prec : Option ContractPrecision)
    (A : FVec Ideal ⟨2, ![M, K]⟩ φ₁) (B : FVec Ideal ⟨2, ![N, K]⟩ φ₂) (r : Fin M) (q : Fin N) :
    FloatOps.matmul (DotDims.transposedRhs M K N) prec A B (constant ⟨2, ![M, N]⟩ .f32 0x00000000#32) (ix2 r q)
      = ∑ j : Fin K, A (ix2 r j) * B (ix2 q j) := by
  rw [Ideal.matmul_constant_zero_apply, ← Equiv.sum_comp (contrEquiv1 (DotDims.transposedRhs M K N) K rfl rfl).symm]
  refine Finset.sum_congr rfl fun j _ => ?_
  rw [nt_lhsIdx, nt_rhsIdx]

/-- The host's `dot_general` against a transposed right operand, at one entry. -/
theorem dotGeneral_nt_apply {φ₁ φ₂ : FTy} (M K N : Nat) (prec : Option ContractPrecision) (sched : HostSchedule)
    (A : FVec Ideal ⟨2, ![M, K]⟩ φ₁) (B : FVec Ideal ⟨2, ![N, K]⟩ φ₂) (r : Fin M) (q : Fin N) :
    FloatOps.dotGeneral (DotDims.transposedRhs M K N) prec sched A B (ix2 r q) = ∑ j : Fin K, A (ix2 r j) * B (ix2 q j) := by
  rw [Ideal.dotGeneral_apply, ← Equiv.sum_comp (contrEquiv1 (DotDims.transposedRhs M K N) K rfl rfl).symm]
  refine Finset.sum_congr rfl fun j _ => ?_
  rw [nt_lhsIdx, nt_rhsIdx]

end Cert.LibDotNT

end
-- ==== Proof.BodyValue.lean ====
/-
  One grid point's output block over the extended reals, entry by entry.

  At block entry (p, q) the accumulator gains, on trip `k`, the products of row `p` of the activation block with
  row `q` of the dequantized weight block over the columns `1024 k … 1024 k + 1023`: the matrix unit contracts both
  operands on their last axis into a zero accumulator, and at the extended reals that is the plain sum of
  products. Four trips add the four chunk sums onto the zero the accumulator starts from, which is the sum over
  all 4096 columns. The block entry is that sum times the scale at column `q`, plus the bias at column `q`.
-/
import proofs.«421323_j15616501088306_3_alg».proof.Proof.BodyRun
import proofs.«421323_j15616501088306_3_alg».proof.Proof.Law
import proofs.«421323_j15616501088306_3_alg».proof.Proof.Spec
import proofs.«421323_j15616501088306_3_alg».proof.Proof.LibDotNT
import Idealize.ShloMosaic.Lib.ValueLayout
import Idealize.ShloMosaic.Lib.ValueIdx
import Idealize.ShloMosaic.PureOps.Ideal.Laws

set_option maxRecDepth 16384

noncomputable section

open scoped BigOperators

namespace Cert.KernelIdeal.Body

open Cert.KernelIdeal Cert.KernelIdeal.Gen
open Idealize.ShloMosaic Idealize.ShloMosaic.ValueIdx QuantLinear

/-- The product the kernel contracts at block row `p`, block column `q` and contraction column `n`: the activation
    times the dequantized weight word. -/
def term (x0 : Vec Ideal S1024x4096 .bf16) (x1 : Vec Ideal S256x4096 .i32) (p : Fin 1024) (q : Fin 256) (n : Fin 4096) : EReal :=
  x0 (ix2 p n) * ((((x1 (ix2 q n)).toInt : ℝ) : EReal) - ((8 : ℝ) : EReal))

/-- The accumulator's first contents: zero everywhere. -/
theorem pay1_apply (p : Fin 1024) (q : Fin 256) : (k0_pay1 (F := Ideal)) (ix2 p q) = 0 := by
  unfold k0_pay1
  rw [shapeCast_self]
  exact Ideal.ofBits_zero_f32

/-- One trip's update at an entry: what was there, plus the products over the trip's 1024 columns. -/
theorem pay2_apply (v20 : Vec Ideal S1024x1024 .bf16) (v23 : Vec Ideal S256x1024 .i32) (v27 : Vec Ideal S1024x256 .f32)
    (p : Fin 1024) (q : Fin 256) :
    k0_pay2 v20 v23 v27 (ix2 p q)
      = v27 (ix2 p q) + ∑ j : Fin 1024, v20 (ix2 p j) * ((((v23 (ix2 q j)).toInt : ℝ) : EReal) - ((8 : ℝ) : EReal)) := by
  unfold k0_pay2
  rw [shapeCast_self, shapeCast_self]
  show v27 (ix2 p q) + FloatOps.matmul (F := Ideal) (φ₁ := .bf16) (φ₂ := .bf16) (DotDims.transposedRhs 1024 1024 256) none v20
      (subf (F := Ideal) (sitofp (F := Ideal) .bf16 v23) (broadcast S256x1024 (Scalar.ofBits (F := Ideal) .bf16 0x4100#16)))
      (constant (F := Ideal) ⟨2, ![1024, 256]⟩ .f32 0x00000000#32) (ix2 p q) = _
  rw [Cert.LibDotNT.matmul_nt_apply]
  refine congrArg _ (Finset.sum_congr rfl fun j _ => ?_)
  show v20 (ix2 p j) * ((((v23 (ix2 q j)).toInt : ℝ) : EReal) - Ideal.ofBits .bf16 0x4100#16) = _
  rw [ofBits_eight_bf16]

/-- The output block at an entry: the accumulator there, times the scale row's entry, plus the bias row's. -/
theorem pay3_apply (v5 v7 : Vec Ideal S1x256 .f32) (v9 : Vec Ideal S1024x256 .f32) (p : Fin 1024) (q : Fin 256) :
    k0_pay3 v5 v7 v9 (ix2 p q) = v9 (ix2 p q) * v5 (ix2 (0 : Fin 1) q) + v7 (ix2 (0 : Fin 1) q) := by
  unfold k0_pay3
  rw [shapeCast_self, shapeCast_self]
  show v9 (ix2 p q) * broadcastTo (α := EReal) ⟨2, ![1024, 256]⟩ v5 broadcasts_S1x256_S1024x256 (ix2 p q)
      + broadcastTo (α := EReal) ⟨2, ![1024, 256]⟩ v7 broadcasts_S1x256_S1024x256 (ix2 p q) = _
  rw [broadcastTo_1b_ab_apply, broadcastTo_1b_ab_apply]

theorem trips_le : k0_t1_loop.trips ≤ 4 := k0_t1_abs.2.1

/-- The activation chunk of trip `k` at (p, j) is the block at column `1024 k + j`. -/
theorem xchunk_apply (x0 : Vec Ideal S1024x4096 .bf16) (k : Fin k0_t1_loop.trips) (p : Fin 1024) (j : Fin 1024) :
    xchunk x0 k (ix2 p j) = x0 (ix2 p ⟨1024 * k.val + j.val, by have := k.isLt; have := trips_le; have := j.isLt; omega⟩) := by
  show x0 ((Rect.unit (s := S1024x4096) (k0_off1 k) S1024x1024.size (k0_off1_inb k)).idx (ix2 p j)) = _
  refine congrArg x0 (funext fun a => Fin.ext ?_)
  have e := k0_off1_eq k
  match a with
  | ⟨0, _⟩ => show (k0_off1 k) 0 + 1 * p.val = p.val; rw [e]; show 0 + 1 * p.val = p.val; omega
  | ⟨1, _⟩ => show (k0_off1 k) 1 + 1 * j.val = 1024 * k.val + j.val; rw [e]; show 1024 * k.val + 1 * j.val = _; omega

/-- The weight chunk of trip `k` at (q, j) is the block at column `1024 k + j`. -/
theorem qchunk_apply (x1 : Vec Ideal S256x4096 .i32) (k : Fin k0_t1_loop.trips) (q : Fin 256) (j : Fin 1024) :
    qchunk x1 k (ix2 q j) = x1 (ix2 q ⟨1024 * k.val + j.val, by have := k.isLt; have := trips_le; have := j.isLt; omega⟩) := by
  show x1 ((Rect.unit (s := S256x4096) (k0_off2 k) S256x1024.size (k0_off2_inb k)).idx (ix2 q j)) = _
  refine congrArg x1 (funext fun a => Fin.ext ?_)
  have e := k0_off2_eq k
  match a with
  | ⟨0, _⟩ => show (k0_off2 k) 0 + 1 * q.val = q.val; rw [e]; show 0 + 1 * q.val = q.val; omega
  | ⟨1, _⟩ => show (k0_off2 k) 1 + 1 * j.val = 1024 * k.val + j.val; rw [e]; show 1024 * k.val + 1 * j.val = _; omega

/-- One trip adds its chunk of the contraction to the accumulator's entry. -/
theorem acc_succ_apply (x0 : Vec Ideal S1024x4096 .bf16) (x1 : Vec Ideal S256x4096 .i32) (k : Fin k0_t1_loop.trips)
    (p : Fin 1024) (q : Fin 256) :
    acc x0 x1 (k.val + 1) (ix2 p q)
      = acc x0 x1 k.val (ix2 p q) + Law.chunk (term x0 x1 p q) ⟨k.val, Nat.lt_of_lt_of_le k.isLt trips_le⟩ := by
  rw [acc_succ, pay2_apply]
  refine congrArg _ (Finset.sum_congr rfl fun j _ => ?_)
  rw [xchunk_apply, qchunk_apply]
  rfl

theorem trips_eq : k0_t1_loop.trips = 4 := by decide

/-- After the last trip the accumulator's entry is the contraction over all 4096 columns. -/
theorem acc_last_apply (x0 : Vec Ideal S1024x4096 .bf16) (x1 : Vec Ideal S256x4096 .i32) (p : Fin 1024) (q : Fin 256) :
    acc x0 x1 k0_t1_loop.trips (ix2 p q) = ∑ n : Fin 4096, term x0 x1 p q n := by
  have h : ∀ k, k < 4 → k < k0_t1_loop.trips := fun k hk => by rw [trips_eq]; exact hk
  have e0 : acc x0 x1 1 (ix2 p q) = acc x0 x1 0 (ix2 p q) + Law.chunk (term x0 x1 p q) 0 :=
    acc_succ_apply x0 x1 ⟨0, h 0 (by omega)⟩ p q
  have e1 : acc x0 x1 2 (ix2 p q) = acc x0 x1 1 (ix2 p q) + Law.chunk (term x0 x1 p q) 1 :=
    acc_succ_apply x0 x1 ⟨1, h 1 (by omega)⟩ p q
  have e2 : acc x0 x1 3 (ix2 p q) = acc x0 x1 2 (ix2 p q) + Law.chunk (term x0 x1 p q) 2 :=
    acc_succ_apply x0 x1 ⟨2, h 2 (by omega)⟩ p q
  have e3 : acc x0 x1 4 (ix2 p q) = acc x0 x1 3 (ix2 p q) + Law.chunk (term x0 x1 p q) 3 :=
    acc_succ_apply x0 x1 ⟨3, h 3 (by omega)⟩ p q
  rw [trips_eq, e3, e2, e1, e0, acc_zero, pay1_apply]
  exact Law.chain_eq_sum _

/-- THE OUTPUT BLOCK at entry (p, q): the contraction over all columns, scaled, plus the bias. -/
theorem block_apply (x0 : Vec Ideal S1024x4096 .bf16) (x1 : Vec Ideal S256x4096 .i32) (x2 x3 : Vec Ideal S1x256 .f32)
    (p : Fin 1024) (q : Fin 256) :
    k0_pay3 x2 x3 (acc x0 x1 k0_t1_loop.trips) (ix2 p q)
      = (∑ n : Fin 4096, term x0 x1 p q n) * x2 (ix2 (0 : Fin 1) q) + x3 (ix2 (0 : Fin 1) q) := by
  rw [pay3_apply, acc_last_apply]

end Cert.KernelIdeal.Body

end
-- ==== Proof.KernelValue.lean ====
/-
  The kernel's result, as one function of its argument arrays over the extended reals.

  The grid is 4 row blocks × 56 column blocks. At point `t` the activation window holds rows
  `1024 i … 1024 i + 1023` of the activation matrix (all 4096 columns), the weight window rows `256 j … 256 j + 255`
  of the stored words, the scale and bias windows columns `256 j … 256 j + 255` of their one row, and the output
  window is block (i, j) of the result, with (i, j) the output window's block index at `t`. So every block the
  body writes is the restriction to that block of ONE matrix (`kmat`): at (r, o) the contraction of activation
  row `r` with dequantized weight row `o`, times the scale at `o`, plus the bias at `o`. The 224 blocks tile the
  result, so after the region the result array is that matrix; the program's last line reshapes it to three axes.
-/
import proofs.«421323_j15616501088306_3_alg».proof.Proof.BodyValue
import Idealize.ShloMosaic.Lib.Pipeline.Value
import Idealize.ShloMosaic.Lib.StableHlo.Run

set_option maxRecDepth 16384

noncomputable section

open scoped BigOperators

namespace Cert.KernelIdeal.KValue

open Cert.KernelIdeal Cert.KernelIdeal.Gen Cert.KernelIdeal.Body
open Idealize.ShloMosaic Idealize.ShloMosaic.TcCoe Idealize.SL.Sem Idealize.ShloMosaic.ValueIdx QuantLinear
open Idealize.ShloMosaic.Pipeline (Dat)

variable (m : (ℓ : Loc nD τ sig) → Buf (Elt Ideal) ℓ) (ρ : Dev nD → PrngReg)

/-- The kernel's matrix over the arrays the region finds: the contraction first, the scale afterwards. -/
def kmat (X : S4096x4096.Idx → EReal) (Q : S14336x4096.Idx → BitVec 32) (Sc Bi : S1x14336.Idx → EReal) :
    S4096x14336.Idx → EReal :=
  fun i => (∑ n : Fin 4096, X (ix2 (i 0) n) * wdeq Q (i 1) n) * Sc (ix2 (0 : Fin 1) (i 1)) + Bi (ix2 (0 : Fin 1) (i 1))

/-- The arrays as the region finds them, and the windows' blocks at a point, at their literal types. -/
abbrev xarr (c : Dev nD) : Vec Ideal S4096x4096 .bf16 := V m c main_v1
abbrev qarr (c : Dev nD) : Vec Ideal S14336x4096 .i32 := V m c main_arg1
abbrev sarr (c : Dev nD) : Vec Ideal S1x14336 .f32 := V m c main_v3
abbrev barr (c : Dev nD) : Vec Ideal S1x14336 .f32 := V m c main_v2
abbrev xblk (c : Dev nD) (t : Fin cfg0.N) : Vec Ideal S1024x4096 .bf16 := iblk m c 0 t
abbrev qblk (c : Dev nD) (t : Fin cfg0.N) : Vec Ideal S256x4096 .i32 := iblk m c 1 t
abbrev sblk (c : Dev nD) (t : Fin cfg0.N) : Vec Ideal S1x256 .f32 := iblk m c 2 t
abbrev bblk (c : Dev nD) (t : Fin cfg0.N) : Vec Ideal S1x256 .f32 := iblk m c 3 t

/-- The printed index maps, decided over the grid: the activation window moves with the output's row block, the
    weight, scale and bias windows with its column block, and the output's block indices stay in range. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = 0 ∧ win0_2.index t (1 : Fin 2) = win0_4.index t (1 : Fin 2)
    ∧ win0_3.index t (0 : Fin 2) = 0 ∧ win0_3.index t (1 : Fin 2) = win0_4.index t (1 : Fin 2)
    ∧ win0_4.index t (0 : Fin 2) ≤ 3 ∧ win0_4.index t (1 : Fin 2) ≤ 55 :=
  (by decide +kernel : ∀ t : Fin grid0.N, _)

/-- Every block of the result is some point's. -/
theorem idx_onto : ∀ (q0 : Fin 4) (q1 : Fin 56), ∃ t : Fin cfg0.N, win0_4.index t = ![q0.val, q1.val] :=
  (by decide +kernel : ∀ (q0 : Fin 4) (q1 : Fin 56), ∃ t : Fin grid0.N, win0_4.index t = ![q0.val, q1.val])

/-- The result's row that block row `p` is at point `t`. -/
def grow (t : Fin cfg0.N) (p : Fin 1024) : Fin 4096 :=
  ⟨win0_4.index t (0 : Fin 2) * 1024 + p.val, by have h := (idx_facts t).2.2.2.2.2.2.2.2.1; have := p.isLt; omega⟩

/-- The result's column that block column `q` is at point `t`. -/
def gcol (t : Fin cfg0.N) (q : Fin 256) : Fin 14336 :=
  ⟨win0_4.index t (1 : Fin 2) * 256 + q.val, by have h := (idx_facts t).2.2.2.2.2.2.2.2.2; have := q.isLt; omega⟩

/-- The activation block's row `p` is the activation matrix's row `grow t p`. -/
theorem xblk_apply (c : Dev nD) (t : Fin cfg0.N) (p : Fin 1024) (n : Fin 4096) :
    xblk m c t (ix2 p n) = xarr m c (ix2 (grow t p) n) := by
  show V m c main_v1 (((cfg0.win 0).blk t).view.emb (ix2 p n)) = V m c main_v1 (ix2 (grow t p) n)
  refine congrArg (V m c main_v1) (funext fun a => Fin.ext ?_)
  obtain ⟨e0, e1, -⟩ := idx_facts t
  match a with
  | ⟨0, _⟩ => show win0_0.index t (0 : Fin 2) * 1024 + 1 * p.val = win0_4.index t (0 : Fin 2) * 1024 + p.val; rw [e0]; omega
  | ⟨1, _⟩ => show win0_0.index t (1 : Fin 2) * 4096 + 1 * n.val = n.val; rw [e1]; omega

/-- The weight block's row `q` is the stored words' row `gcol t q`. -/
theorem qblk_apply (c : Dev nD) (t : Fin cfg0.N) (q : Fin 256) (n : Fin 4096) :
    qblk m c t (ix2 q n) = qarr m c (ix2 (gcol t q) n) := by
  show V m c main_arg1 (((cfg0.win 1).blk t).view.emb (ix2 q n)) = V m c main_arg1 (ix2 (gcol t q) n)
  refine congrArg (V m c main_arg1) (funext fun a => Fin.ext ?_)
  obtain ⟨-, -, e0, e1, -⟩ := idx_facts t
  match a with
  | ⟨0, _⟩ => show win0_1.index t (0 : Fin 2) * 256 + 1 * q.val = win0_4.index t (1 : Fin 2) * 256 + q.val; rw [e0]; omega
  | ⟨1, _⟩ => show win0_1.index t (1 : Fin 2) * 4096 + 1 * n.val = n.val; rw [e1]; omega

/-- The scale block's column `q` is the scale row's column `gcol t q`. -/
theorem sblk_apply (c : Dev nD) (t : Fin cfg0.N) (q : Fin 256) :
    sblk m c t (ix2 (0 : Fin 1) q) = sarr m c (ix2 (0 : Fin 1) (gcol t q)) := by
  show V m c main_v3 (((cfg0.win 2).blk t).view.emb (ix2 (0 : Fin 1) q)) = V m c main_v3 (ix2 (0 : Fin 1) (gcol t q))
  refine congrArg (V m c main_v3) (funext fun a => Fin.ext ?_)
  obtain ⟨-, -, -, -, e0, e1, -⟩ := idx_facts t
  match a with
  | ⟨0, _⟩ => show win0_2.index t (0 : Fin 2) * 1 + 1 * 0 = 0; rw [e0]
  | ⟨1, _⟩ => show win0_2.index t (1 : Fin 2) * 256 + 1 * q.val = win0_4.index t (1 : Fin 2) * 256 + q.val; rw [e1]; omega

/-- The bias block's column `q` is the bias row's column `gcol t q`. -/
theorem bblk_apply (c : Dev nD) (t : Fin cfg0.N) (q : Fin 256) :
    bblk m c t (ix2 (0 : Fin 1) q) = barr m c (ix2 (0 : Fin 1) (gcol t q)) := by
  show V m c main_v2 (((cfg0.win 3).blk t).view.emb (ix2 (0 : Fin 1) q)) = V m c main_v2 (ix2 (0 : Fin 1) (gcol t q))
  refine congrArg (V m c main_v2) (funext fun a => Fin.ext ?_)
  obtain ⟨-, -, -, -, -, -, e0, e1, -⟩ := idx_facts t
  match a with
  | ⟨0, _⟩ => show win0_3.index t (0 : Fin 2) * 1 + 1 * 0 = 0; rw [e0]
  | ⟨1, _⟩ => show win0_3.index t (1 : Fin 2) * 256 + 1 * q.val = win0_4.index t (1 : Fin 2) * 256 + q.val; rw [e1]; omega

/-- Entry (p, q) of the output block at point `t` is entry (`grow t p`, `gcol t q`) of the result. -/
theorem oblk_emb (t : Fin cfg0.N) (p : Fin 1024) (q : Fin 256) :
    ((cfg0.win 4).blk t).view.emb (ix2 p q) = ix2 (grow t p) (gcol t q) := by
  refine funext fun a => Fin.ext ?_
  match a with
  | ⟨0, _⟩ => show win0_4.index t (0 : Fin 2) * 1024 + 1 * p.val = win0_4.index t (0 : Fin 2) * 1024 + p.val; omega
  | ⟨1, _⟩ => show win0_4.index t (1 : Fin 2) * 256 + 1 * q.val = win0_4.index t (1 : Fin 2) * 256 + q.val; omega

/-- WHAT POINT `t` WRITES BACK is block `t` of the kernel's matrix. -/
theorem flushed_eq (c : Dev nD) (t : Fin cfg0.N) :
    (dats m 0 c).flushed 4 t
      = ((cfg0.win 4).blk t).view.read (Elt Ideal) (kmat (xarr m c) (qarr m c) (sarr m c) (barr m c)) := by
  show (cfg0.win 4).cut (grid0.coords t) ((dats m 0 c).after 4 t) = _
  rw [after0_4]
  unfold outsAt0
  rw [out_eq]
  refine funext fun (j : S1024x256.Idx) => ?_
  obtain ⟨p, q, rfl⟩ : ∃ (p : Fin 1024) (q : Fin 256), j = ix2 p q := ⟨j 0, j 1, eq_ix2 j⟩
  show k0_pay3 (sblk m c t) (bblk m c t) (acc (xblk m c t) (qblk m c t) k0_t1_loop.trips) (ix2 p q)
    = kmat (xarr m c) (qarr m c) (sarr m c) (barr m c) (((cfg0.win 4).blk t).view.emb (ix2 p q))
  refine (block_apply (xblk m c t) (qblk m c t) (sblk m c t) (bblk m c t) p q).trans ?_
  rw [oblk_emb, sblk_apply, bblk_apply]
  show _ = (∑ n : Fin 4096, xarr m c (ix2 (grow t p) n) * wdeq (qarr m c) (gcol t q) n)
      * sarr m c (ix2 (0 : Fin 1) (gcol t q)) + barr m c (ix2 (0 : Fin 1) (gcol t q))
  refine congrArg (fun z => z * sarr m c (ix2 (0 : Fin 1) (gcol t q)) + barr m c (ix2 (0 : Fin 1) (gcol t q)))
    (Finset.sum_congr rfl fun n _ => ?_)
  unfold term
  rw [xblk_apply, qblk_apply]
  rfl

/-- An index of the result is in point `t`'s block iff each coordinate is in the block's range on its axis. -/
theorem mem_blk (t : Fin cfg0.N) (i : S4096x14336.Idx) :
    i ∈ ((cfg0.win 4).blk t).view.set ↔ ∀ a : Fin 2, win0_4.index t a * S1024x256.size a ≤ (i a).val
      ∧ (i a).val < win0_4.index t a * S1024x256.size a + S1024x256.size a := by
  show i ∈ ((View.whole main_v4).slice (win0_4.rect t)).set ↔ _
  rw [View.set_slice_whole, Rect.mem_set_unit]
  exact Iff.rfl

/-- The blocks tile the result: entry (r, o) lies in the block with index (r / 1024, o / 256). -/
theorem cover (i : S4096x14336.Idx) :
    ∃ t : Fin cfg0.N, (cfg0.win 4).flush t = true ∧ i ∈ ((cfg0.win 4).blk t).view.set := by
  have hi0 : (i 0).val < 4096 := (i 0).isLt
  have hi1 : (i 1).val < 14336 := (i 1).isLt
  obtain ⟨t, ht⟩ := idx_onto ⟨(i 0).val / 1024, by omega⟩ ⟨(i 1).val / 256, by omega⟩
  have q0 : win0_4.index t (0 : Fin 2) = (i 0).val / 1024 := congrFun ht 0
  have q1 : win0_4.index t (1 : Fin 2) = (i 1).val / 256 := congrFun ht 1
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 256 ≤ (i 1).val ∧ (i 1).val < win0_4.index t (1 : Fin 2) * 256 + 256; omega

/-- THE RESULT ARRAY after the region is the kernel's matrix. -/
theorem final (c : Dev nD) :
    (dats m 0 c).arrAt 4 cfg0.N = kmat (xarr m c) (qarr m c) (sarr m c) (barr m c) :=
  (dats m 0 c).arrAt_eq_of_cover 4 (kmat (xarr m c) (qarr m c) (sarr m c) (barr m c)) (fun t _ => flushed_eq m c t) (cover)

end Cert.KernelIdeal.KValue

end
-- ==== Proof.KernelRun.lean ====
/-
  The kernel program's run, read: its result is the specification of its arguments, reshaped.

  The lines before the region only re-lay the arguments: the activations' two leading axes are merged (and the
  change of float format is the identity over the extended reals), the scale column becomes a row, the bias vector
  a one-row matrix. So the arrays the region finds are the arguments at other indices, and the kernel's matrix is
  "contract, then scale, then add the bias" of the arguments. Moving the scale inside the contraction gives the
  specification; that step is distributivity and uses that the activations and the scales are real numbers. The
  line after the region reshapes the matrix to three axes.
-/
import proofs.«421323_j15616501088306_3_alg».proof.Proof.KernelValue

set_option maxRecDepth 16384

noncomputable section

open scoped BigOperators

namespace Cert.KernelIdeal.KValue

open Cert.KernelIdeal Cert.KernelIdeal.Gen Cert.KernelIdeal.Body
open Idealize.ShloMosaic Idealize.ShloMosaic.TcCoe Idealize.SL.Sem Idealize.ShloMosaic.ValueIdx QuantLinear
open Idealize.ShloMosaic.Pipeline (Dat)

variable (m : (ℓ : Loc nD τ sig) → Buf (Elt Ideal) ℓ) (ρ : Dev nD → PrngReg)

/-- The four argument arrays as launched, at their literal types. -/
abbrev a0 (c : Dev nD) : S2x2048x4096.Idx → EReal := m ((c : Thread nD τ).loc main_arg0)
abbrev a1 (c : Dev nD) : S14336x4096.Idx → BitVec 32 := m ((c : Thread nD τ).loc main_arg1)
abbrev a2 (c : Dev nD) : S14336x1.Idx → EReal := m ((c : Thread nD τ).loc main_arg2)
abbrev a3 (c : Dev nD) : S14336.Idx → EReal := m ((c : Thread nD τ).loc main_arg3)

/-- The activations as a matrix: the argument's two leading axes merged. -/
abbrev xmat (c : Dev nD) : S4096x4096.Idx → EReal :=
  shapeCast S4096x4096 (a0 m c) shapeCasts_S2x2048x4096_S4096x4096

/-- The activation matrix the region finds is the merged argument (the format change is the identity). -/
theorem xarr_eq (c : Dev nD) : xarr m c = xmat m c := by
  show StableHlo.after hostOps0 (fun b => m (c, b)) (Proc.devRef .tc main_v1) = _
  after_results
  rfl

/-- The stored words the region finds are the argument. -/
theorem qarr_eq (c : Dev nD) : qarr m c = a1 m c := V_main_arg1 m c

/-- The scale row the region finds, at column `o`, is the scale argument at row `o`. -/
theorem sarr_apply (c : Dev nD) (o : Fin 14336) :
    sarr m c (ix2 (0 : Fin 1) o) = a2 m c (ix2 o (0 : Fin 1)) := by
  have e : sarr m c = shapeCast S1x14336 (a2 m c) shapeCasts_S14336x1_S1x14336 := by
    show StableHlo.after hostOps0 (fun b => m (c, b)) (Proc.devRef .tc main_v3) = _
    after_results
    rfl
  rw [e]
  refine shapeCast_apply (s := S14336x1) (t := S1x14336) (a2 m c) _ _ _ ?_
  rw [Shape.rowMajor_val_two, Shape.rowMajor_val_two]
  show o.val * 1 + 0 = 0 * 14336 + o.val
  omega

/-- The bias row the region finds, at column `o`, is the bias argument at `o`. -/
theorem barr_apply (c : Dev nD) (o : Fin 14336) :
    barr m c (ix2 (0 : Fin 1) o) = a3 m c (ix1 o) := by
  have e : barr m c = shapeCast S1x14336 (a3 m c) shapeCasts_S14336_S1x14336 := by
    show StableHlo.after hostOps0 (fun b => m (c, b)) (Proc.devRef .tc main_v2) = _
    after_results
    rfl
  rw [e]
  exact shapeCast_a_1a_apply (a3 m c) _ _ _

/-- THE KERNEL'S MATRIX IS THE SPECIFICATION of the arguments, when the activations and the scales are real numbers:
    the scale moves inside the contraction. -/
theorem kmat_eq_spec (c : Dev nD)
    (hx : ∀ i, ∃ r : ℝ, a0 m c i = r) (hs : ∀ i, ∃ r : ℝ, a2 m c i = r) :
    kmat (xarr m c) (qarr m c) (sarr m c) (barr m c) = spec (xmat m c) (a1 m c) (a2 m c) (a3 m c) := by
  funext i
  obtain ⟨r, o, rfl⟩ : ∃ (r : Fin 4096) (o : Fin 14336), i = ix2 r o := ⟨i 0, i 1, eq_ix2 i⟩
  show (∑ n : Fin 4096, xarr m c (ix2 r n) * wdeq (qarr m c) o n) * sarr m c (ix2 (0 : Fin 1) o) + barr m c (ix2 (0 : Fin 1) o)
    = (∑ n : Fin 4096, xmat m c (ix2 r n) * (wdeq (a1 m c) o n * a2 m c (ix2 o (0 : Fin 1)))) + a3 m c (ix1 o)
  rw [sarr_apply, barr_apply, xarr_eq, qarr_eq]
  refine congrArg (· + a3 m c (ix1 o)) ?_
  exact Law.sum_mul_scale Finset.univ (fun n => xmat m c (ix2 r n)) (fun n => wdeq (a1 m c) o n) _
    (fun n => hx _) (fun n => wdeq_real _ o n) (hs _)

/-- After the region and the reshape that follows it, the result buffer holds the kernel's matrix reshaped. -/
theorem tail_eq (c : Dev nD) :
    Pipeline.afterTail₀ cfgs (dats m) 0 (V0 m) [hostOps1] c main_v5
      = shapeCast S2x2048x14336 (kmat (xarr m c) (qarr m c) (sarr m c) (barr m c)) shapeCasts_S4096x14336_S2x2048x14336 := by
  unfold Pipeline.afterTail₀
  show StableHlo.after hostOps1 _ (Proc.devRef .tc main_v5) = _
  after_results
  exact congrArg (fun v => shapeCast S2x2048x14336 v shapeCasts_S4096x14336_S2x2048x14336)
    ((Pipeline.withArrays_arr spec0 launch0.win.arr_inj c _ _ 4).trans (final m c))

/-- THE RUN, READ: every weakly fair execution ends with the result buffer at the kernel's matrix reshaped, and the
    arguments unchanged. -/
theorem run : θ_run defs (onTc (τ := τ) (main (F := Ideal))) ⟨m, fun _ => 0, ρ⟩ fun r => ∀ c : Dev nD,
      r.2.mem ((c : Thread nD τ).loc main_v5)
        = shapeCast S2x2048x14336 (kmat (xarr m c) (qarr m c) (sarr m c) (barr m c)) shapeCasts_S4096x14336_S2x2048x14336
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KValue

end
-- ==== Proof.RefValue.lean ====
/-
  The reference program computes the specification.

  Read one operation at a time, the reference's matrix before its final reshape has, at entry (r, o), the
  contraction over all 4096 columns of the activation row `r` with the weight row `o` — each stored word converted
  to a float, shifted by the zero point and multiplied by the row's scale —, plus the bias at `o`. That is the
  specification verbatim, once the operations' index maps are read at the entry's coordinates and the zero
  point's f32 pattern is read as 8.
-/
import proofs.«421323_j15616501088306_3_alg».proof.Proof.Gen.ReferenceIdeal.Read
import proofs.«421323_j15616501088306_3_alg».proof.Proof.Spec

noncomputable section

open scoped BigOperators

namespace Cert.ReferenceIdeal.RefValue

open Cert.ReferenceIdeal Cert.ReferenceIdeal.Read Idealize.ShloMosaic Idealize.ShloMosaic.ValueIdx QuantLinear

/-- The reference's matrix before the final reshape is the specification of the argument arrays. -/
theorem v9_eq_spec (x0 : (⟨S2x2048x4096, .f32⟩ : BufTy).Contents (Elt Ideal)) (x1 : (⟨S14336x4096, .i32⟩ : BufTy).Contents (Elt Ideal))
    (x2 : (⟨S14336x1, .f32⟩ : BufTy).Contents (Elt Ideal)) (x3 : (⟨S14336, .f32⟩ : BufTy).Contents (Elt Ideal)) :
    val_main_v9 (F := Ideal) x0 x1 x2 x3 = spec (val_main_v0 (F := Ideal) x0) x1 x2 x3 := by
  funext i
  obtain ⟨r, o, rfl⟩ : ∃ (r : Fin 4096) (o : Fin 14336), i = ix2 r o := ⟨i 0, i 1, eq_ix2 i⟩
  have el : ∀ k : Fin 4096, lidx_main_v6 (ix2 r o) k = ix2 r k := fun k => funext fun a => by
    match a with | ⟨0, _⟩ => rfl | ⟨1, _⟩ => rfl
  have er : ∀ k : Fin 4096, ridx_main_v6 (ix2 r o) k = ix2 o k := fun k => funext fun a => by
    match a with | ⟨0, _⟩ => rfl | ⟨1, _⟩ => rfl
  have e4 : ∀ k : Fin 4096, idx_main_v4 (ix2 o k) = ix2 o (0 : Fin 1) := fun k => funext fun a => by
    match a with | ⟨0, _⟩ => rfl | ⟨1, _⟩ => rfl
  have e8 : idx_main_v7 (idx_main_v8 (ix2 r o)) = ix1 o := funext fun a => by
    match a with | ⟨0, _⟩ => rfl
  rw [spec_apply, val_main_v9_apply, val_main_v6_apply, val_main_v8_apply, val_main_v7_apply, e8, Ideal.addf_def]
  refine congrArg (· + x3 (ix1 o)) (Finset.sum_congr rfl fun k _ => ?_)
  rw [el, er, val_main_v5_apply, val_main_v3_apply, val_main_v1_apply, val_main_v2_apply, val_main_cst_apply,
    val_main_v4_apply, e4, Ideal.mulf_def, Ideal.subf_def, Ideal.ofBits_def, ofBits_eight_f32]
  rfl

end Cert.ReferenceIdeal.RefValue

end
-- ==== Proof.Finite.lean ====
/-
  What the precondition gives: every activation and every scale is a real number.

  The precondition is the conjunction of three `all |x| < +inf` tests, one per float input. Each test is an `and`
  reduction over the whole array that came out true, so every entry passed; and an extended real whose absolute
  value is below +inf is neither infinity, hence a real number.
-/
import proofs.«421323_j15616501088306_3_alg».proof.Pre_finite_inputs
import proofs.«421323_j15616501088306_3_alg».proof.Proof.Gen.Pre_finite_inputs
import proofs.«421323_j15616501088306_3_alg».proof.Proof.Law
import Idealize.ShloMosaic.Lib.ReduceAll
import Idealize.ShloMosaic.Lib.ValueIdx
import Idealize.ShloMosaic.PureOps.Ideal

noncomputable section

namespace Cert.Pre_finite_inputs.Finite

open Cert.Pre_finite_inputs Idealize.ShloMosaic Idealize.ShloMosaic.ValueIdx

instance : Subsingleton S_.Idx := ⟨fun a b => funext fun d => d.elim0⟩

/-- An extended real whose absolute value compares below the +inf pattern is a real number. -/
theorem real_of_abs_lt (x : EReal) (h : Ideal.cmp .olt (max x (-x)) (Ideal.ofBits .f32 0x7F800000#32) = 1#1) :
    ∃ r : ℝ, x = r := by
  have htop : Ideal.ofBits .f32 0x7F800000#32 = ⊤ := by simp [Ideal.ofBits, Ideal.ieee]
  rw [htop] at h
  have h' : max x (-x) < ⊤ := by
    unfold Ideal.cmp at h
    by_contra hn
    simp [hn] at h
  refine QuantLinear.Law.exists_real ?_ ?_
  · rintro rfl; simp at h'
  · rintro rfl; simp at h'

/-- Under the precondition every activation and every scale is a real number. -/
theorem real_of_pre (a0 : FVec Ideal S2x2048x4096 .f32) (a1 : IVec S14336x4096 32) (a2 : FVec Ideal S14336x1 .f32)
    (a3 : FVec Ideal S14336 .f32) (h : fn (F := Ideal) a0 a1 a2 a3 = fun _ => 1#1) :
    (∀ i, ∃ r : ℝ, a0 i = r) ∧ (∀ i, ∃ r : ℝ, a2 i = r) := by
  have h0 := congrFun h ix0
  dsimp only [fn] at h0
  obtain ⟨h01, -⟩ := IntOp.andi_eq_one.1 h0
  obtain ⟨hx, hs⟩ := IntOp.andi_eq_one.1 h01
  refine ⟨fun i => real_of_abs_lt _ ?_, fun i => real_of_abs_lt _ ?_⟩
  · exact Host.reduce_andi_all _ _ _ _ ix0 hx i
  · exact Host.reduce_andi_all _ _ _ _ ix0 hs i

end Cert.Pre_finite_inputs.Finite

end
-- ==== Proof.lean ====
/-
  Quantized linear layer: a Pallas kernel against its jnp reference, equal over the extended reals.

  Both programs compute, at entry (t, o) of the result,

      ( ∑ₙ x[t, n] · ((q[o, n] − 8) · s[o]) ) + b[o] .

  The reference does so literally: it dequantizes and scales the weights, contracts all 4096 columns at once and
  adds the bias. The kernel walks a 4 × 56 grid of 1024 × 256 output blocks; per block it zeroes an accumulator,
  adds the contraction in four chunks of 1024 columns, and only then scales by s[o] and adds b[o]. Regrouping the
  sum costs nothing; moving the scale across the sum is distributivity, which over the extended reals needs the
  activations and the scales to be real numbers, and that is what the precondition says.

  The modules: Law (the algebra), Spec (the formula above and the zero point's two spellings), RefValue (the
  reference is the formula), BodyRun and BodyValue (one grid point's output block), KernelValue (the blocks tile
  one matrix), KernelRun (the kernel program's result is the formula, reshaped), Finite (the precondition read).
  The three frames are the generated ones; the idealization rewrote nothing.
-/
import proofs.«421323_j15616501088306_3_alg».proof.Defs
import proofs.«421323_j15616501088306_3_alg».proof.Proof.Gen.Kernel
import proofs.«421323_j15616501088306_3_alg».proof.Proof.Gen.Kernel.Skeleton
import proofs.«421323_j15616501088306_3_alg».proof.Proof.Gen.Kernel.Loops
import proofs.«421323_j15616501088306_3_alg».proof.Proof.Gen.Kernel.Launch
import proofs.«421323_j15616501088306_3_alg».proof.Proof.Gen.Kernel.Points
import proofs.«421323_j15616501088306_3_alg».proof.Proof.Gen.Kernel.Frame
import proofs.«421323_j15616501088306_3_alg».proof.Proof.Gen.KernelIdeal
import proofs.«421323_j15616501088306_3_alg».proof.Proof.Gen.KernelIdeal.Skeleton
import proofs.«421323_j15616501088306_3_alg».proof.Proof.Gen.KernelIdeal.Loops
import proofs.«421323_j15616501088306_3_alg».proof.Proof.Gen.KernelIdeal.Launch
import proofs.«421323_j15616501088306_3_alg».proof.Proof.Gen.KernelIdeal.Points
import proofs.«421323_j15616501088306_3_alg».proof.Proof.Gen.KernelIdeal.Frame
import proofs.«421323_j15616501088306_3_alg».proof.Proof.Gen.ReferenceIdeal
import proofs.«421323_j15616501088306_3_alg».proof.Proof.Gen.ReferenceIdeal.Run
import proofs.«421323_j15616501088306_3_alg».proof.Proof.Gen.ReferenceIdeal.Read
import proofs.«421323_j15616501088306_3_alg».proof.Proof.Gen.Pre_finite_inputs
import proofs.«421323_j15616501088306_3_alg».proof.Proof.KernelRun
import proofs.«421323_j15616501088306_3_alg».proof.Proof.RefValue
import proofs.«421323_j15616501088306_3_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result buffer at the specification of the arguments, reshaped to three axes: the
    kernel by its run read through the blocks (using that activations and scales are real numbers under the
    precondition), the reference by its operations read one at a time, on arguments that agree. -/
theorem algebraic : Cert.algebraic_KernelIdeal_ReferenceIdeal := by
  intro m ρ m' ρ' hpre hagree
  refine ⟨fun c => shapeCast Cert.KernelIdeal.S2x2048x14336
      (QuantLinear.spec (Cert.KernelIdeal.KValue.xmat m c) (Cert.KernelIdeal.KValue.a1 m c)
        (Cert.KernelIdeal.KValue.a2 m c) (Cert.KernelIdeal.KValue.a3 m c))
      Cert.KernelIdeal.Gen.shapeCasts_S4096x14336_S2x2048x14336, ?_, ?_⟩
  · refine (θ_run Cert.KernelIdeal.defs _ _).mono (fun _ h c => ⟨(h c).1.trans ?_, (h c).2⟩)
      (Cert.KernelIdeal.KValue.run m ρ)
    obtain ⟨hx, hs⟩ := Cert.Pre_finite_inputs.Finite.real_of_pre _ _ _ _ (hpre c)
    rw [Cert.KernelIdeal.KValue.kmat_eq_spec m c hx hs]
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v10_eq]
    unfold Cert.ReferenceIdeal.Read.val_main_v10
    rw [Cert.ReferenceIdeal.RefValue.v9_eq_spec, (hagree c).1, (hagree c).2.1, (hagree c).2.2.1, (hagree c).2.2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
